-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096x1 .f32) (main_arg3 : FVec F S4096x1 .f32) (main_arg4 : FVec F S1x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  broadcasts_S512x1_S512x1024 : S512x1.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  broadcasts_S1x512_S1024x512 : S1x512.Broadcasts S1024x512
  shapeCasts_S16384x4096_S8x2048x4096 : S16384x4096.ShapeCasts S8x2048x4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x4096.size a
  hwx0_5 : ∀ i : grid0.Coords, EltTy.bits .f32 = 32 ∨ (Rect.block (s := S16384x4096) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8x2048x4096, .f32⟩
  | .hbm, ⟨10, _⟩ => ⟨S1x1x4096, .f32⟩
  | .hbm, ⟨11, _⟩ => ⟨S8x2048x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S1x4096_S1x1x4096_1_2 : S1x4096.BroadcastsInDim S1x1x4096 (![1, 2] : Fin 2 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one run of the kernel body leaves behind, as values of its input blocks: the running total `acc` (the scratch
  that survives from one grid point to the next) and, at the last step of the contraction axis, the output block.

  Writing `step w z s x acc` for `acc + x · ((w - z) * s)ᵀ` (the body's one matrix product added to the total it
  loaded), the three control cases are
    first step  (the total is zeroed, then read back):  acc' = step w z s x 0
    middle step                                      :  acc' = step w z s x acc
    last step                                        :  acc' = step w z s x acc,  out = acc' + bias (broadcast down the rows)
  for any float instance: each case stores whole buffers through the zero-offset rectangle, so what a buffer ends
  holding is the last payload stored into it, and a load after a store reads that payload.
-/
import proofs.«130968_j40303973105954_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First step: the scratch ends at the update of the zero block. -/
theorem scratch_first (c : Dev nD) (i : grid0.Coords) (a3 : Memref sig .tc .vmem S1024x1024 .f32) (h3 : a3.IsWhole) (a4 : Memref sig .tc .vmem S512x1024 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : cond0_0 i) (hc1 : ¬cond0_1 i) (x0 : Vec F S1024x1024 .f32) (x1 : Vec F S512x1024 .f32) (x2 : Vec F S512x1 .f32) (x3 : Vec F S512x1 .f32) (x4 : Vec F S1x512 .f32) :
    sout0_A_0 c i a3 h3 a4 h4 a5 h5 a6 h6 a7 h7 a8 h8 a9 h9 hc0 hc1 x0 x1 x2 x3 x4 = k0_pay2 x1 x3 x2 x0 k0_pay1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x512) hz]
  simp only [View.readAt_eq_ld, h3.read_unread, h4.read_unread, h5.read_unread, h6.read_unread, h7.read_unread, h9.read_unread, View.ld_unit_zero (S := S1024x1024) hz, View.ld_unit_zero (S := S512x1024) hz, View.ld_unit_zero (S := S512x1) hz, View.ld_unit_zero (S := S1x512) hz, View.ld_unit_zero (S := S1024x512) hz, View.readCov_unit_zero (S := S1024x512) _ hz]

/-- Middle step: the scratch ends at the update of what the step before left. -/
theorem scratch_middle (c : Dev nD) (i : grid0.Coords) (a3 : Memref sig .tc .vmem S1024x1024 .f32) (h3 : a3.IsWhole) (a4 : Memref sig .tc .vmem S512x1024 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : ¬cond0_1 i) (x0 : Vec F S1024x1024 .f32) (x1 : Vec F S512x1024 .f32) (x2 : Vec F S512x1 .f32) (x3 : Vec F S512x1 .f32) (x4 : Vec F S1x512 .f32) (xs0 : Vec F S1024x512 .f32) :
    sout0_B_0 c i a3 h3 a4 h4 a5 h5 a6 h6 a7 h7 a8 h8 a9 h9 hc0 hc1 x0 x1 x2 x3 x4 xs0 = k0_pay2 x1 x3 x2 x0 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz]
  simp only [View.readAt_eq_ld, h3.read_unread, h4.read_unread, h5.read_unread, h6.read_unread, h7.read_unread, h9.read_unread, View.ld_unit_zero (S := S1024x1024) hz, View.ld_unit_zero (S := S512x1024) hz, View.ld_unit_zero (S := S512x1) hz, View.ld_unit_zero (S := S1x512) hz, View.ld_unit_zero (S := S1024x512) hz, View.readCov_unit_zero (S := S1024x512) _ hz]

/-- Last step: the scratch ends at the update of what the step before left, -/
theorem scratch_last (c : Dev nD) (i : grid0.Coords) (a3 : Memref sig .tc .vmem S1024x1024 .f32) (h3 : a3.IsWhole) (a4 : Memref sig .tc .vmem S512x1024 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x1024 .f32) (x1 : Vec F S512x1024 .f32) (x2 : Vec F S512x1 .f32) (x3 : Vec F S512x1 .f32) (x4 : Vec F S1x512 .f32) (xs0 : Vec F S1024x512 .f32) :
    sout0_C_0 c i a3 h3 a4 h4 a5 h5 a6 h6 a7 h7 a8 h8 a9 h9 hc0 hc1 x0 x1 x2 x3 x4 xs0 = k0_pay2 x1 x3 x2 x0 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h9.read_unread, View.ld_unit_zero (S := S1024x1024) hz, View.ld_unit_zero (S := S512x1024) hz, View.ld_unit_zero (S := S512x1) hz, View.ld_unit_zero (S := S1x512) hz, View.ld_unit_zero (S := S1024x512) hz, View.readCov_unit_zero (S := S1024x512) _ hz]

/-- and the output block at that total (read back after the store) plus the bias row. -/
theorem out_last (c : Dev nD) (i : grid0.Coords) (a3 : Memref sig .tc .vmem S1024x1024 .f32) (h3 : a3.IsWhole) (a4 : Memref sig .tc .vmem S512x1024 .f32) (h4 : a4.IsWhole) (a5 : Memref sig .tc .vmem S512x1 .f32) (h5 : a5.IsWhole) (a6 : Memref sig .tc .vmem S512x1 .f32) (h6 : a6.IsWhole) (a7 : Memref sig .tc .vmem S1x512 .f32) (h7 : a7.IsWhole) (a8 : Memref sig .tc .vmem S1024x512 .f32) (h8 : a8.IsWhole) (a9 : Memref sig .tc .vmem S1024x512 .f32) (h9 : a9.IsWhole) (hc0 : ¬cond0_0 i) (hc1 : cond0_1 i) (x0 : Vec F S1024x1024 .f32) (x1 : Vec F S512x1024 .f32) (x2 : Vec F S512x1 .f32) (x3 : Vec F S512x1 .f32) (x4 : Vec F S1x512 .f32) (xs0 : Vec F S1024x512 .f32) :
    out0_C_5 c i a3 h3 a4 h4 a5 h5 a6 h6 a7 h7 a8 h8 a9 h9 hc0 hc1 x0 x1 x2 x3 x4 xs0 = k0_pay3 (k0_pay2 x1 x3 x2 x0 xs0) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread, h9.read_unread, View.ld_unit_zero (S := S1024x1024) hz, View.ld_unit_zero (S := S512x1024) hz, View.ld_unit_zero (S := S512x1) hz, View.ld_unit_zero (S := S1x512) hz, View.ld_unit_zero (S := S1024x512) hz, View.readCov_unit_zero (S := S1024x512) _ hz]

end Cert.KernelIdeal.Pieces

end
-- ==== Proof.Fold.lean ====
/-
  The running total across the grid. The grid's last axis walks the contraction axis in four steps, so the points
  come in runs of four consecutive positions n ≡ 0, 1, 2, 3 (mod 4): the first of a run resets the total, every one
  adds its block product to it, and the last also writes the output block. What the output's staging buffer holds
  at the last point of a run is therefore four nested updates of the reset value, at the blocks of the run's four
  points, plus that point's bias block — stated here for any float instance, with no arithmetic opened.
-/
import proofs.«130968_j40303973105954_1_alg».proof.Proof.Pieces

set_option maxRecDepth 16384

noncomputable section

namespace Cert.KernelIdeal.Fold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The blocks the body finds at point `t`: of the input rows, the stored weights, the scales, the zero points, the bias. -/
abbrev xblk (c : Dev nD) (t : Fin cfg0.N) : Vec F S1024x1024 .f32 := iblk m c 0 t
abbrev wblk (c : Dev nD) (t : Fin cfg0.N) : Vec F S512x1024 .f32 := iblk m c 1 t
abbrev sblk (c : Dev nD) (t : Fin cfg0.N) : Vec F S512x1 .f32 := iblk m c 2 t
abbrev zblk (c : Dev nD) (t : Fin cfg0.N) : Vec F S512x1 .f32 := iblk m c 3 t
abbrev bblk (c : Dev nD) (t : Fin cfg0.N) : Vec F S1x512 .f32 := iblk m c 4 t

/-- One point's update of the total: the body's stored value at the point's weight, zero-point, scale and input blocks. -/
def step (c : Dev nD) (t : Fin cfg0.N) (acc : Vec F S1024x512 .f32) : Vec F S1024x512 .f32 :=
  k0_pay2 (wblk m c t) (zblk m c t) (sblk m c t) (xblk m c t) acc

/-- The point before. -/
def prev (t : Fin cfg0.N) : Fin cfg0.N := ⟨t.val - 1, Nat.lt_of_le_of_lt (Nat.sub_le _ _) t.isLt⟩

theorem prev_val (t : Fin cfg0.N) : (prev t).val = t.val - 1 := rfl

/-- At the first point of a run the total is the update of the reset value. -/
theorem total_first (c : Dev nD) (t : Fin cfg0.N) (h0 : t.val % 4 = 0) :
    (outsAt0 m c t.val t.isLt).2 = step m c t (k0_pay1 (F := F)) := by
  have h1 : ¬t.val % 4 = 3 := by omega
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At every other point it is the update of what the point before left. -/
theorem total_next (c : Dev nD) (t : Fin cfg0.N) (h0 : ¬t.val % 4 = 0) :
    (outsAt0 m c t.val t.isLt).2 = step m c t (outsAt0 m c (prev t).val (prev t).isLt).2 := by
  by_cases h1 : t.val % 4 = 3
  · rw [outsAt0_C m c t h0 h1]
    dsimp only
    exact Pieces.scratch_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact Pieces.scratch_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At the last point of a run the output's buffer holds that point's total plus its bias block. -/
theorem output_last (c : Dev nD) (t : Fin cfg0.N) (h1 : t.val % 4 = 3) :
    (outsAt0 m c t.val t.isLt).1 = k0_pay3 (step m c t (outsAt0 m c (prev t).val (prev t).isLt).2) (bblk m c t) := by
  have h0 : ¬t.val % 4 = 0 := by omega
  rw [outsAt0_C m c t h0 h1]
  dsimp only
  exact Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- So at the last point of a run: four nested updates of the reset value, over the run's four points, plus the bias. -/
theorem output_run (c : Dev nD) (t : Fin cfg0.N) (h1 : t.val % 4 = 3) :
    (outsAt0 m c t.val t.isLt).1
      = k0_pay3 (step m c t (step m c (prev t) (step m c (prev (prev t)) (step m c (prev (prev (prev t))) (k0_pay1 (F := F))))))
          (bblk m c t) := by
  have e1 : (prev t).val = t.val - 1 := rfl
  have e2 : (prev (prev t)).val = t.val - 1 - 1 := rfl
  have e3 : (prev (prev (prev t))).val = t.val - 1 - 1 - 1 := rfl
  rw [output_last m c t h1, total_next m c (prev t) (by rw [e1]; omega), total_next m c (prev (prev t)) (by rw [e2]; omega),
    total_first m c (prev (prev (prev t))) (by rw [e3]; omega)]

end Cert.KernelIdeal.Fold

end
-- ==== Proof.Blocks.lean ====
/-
  Where a block sits in its array. Grid position `n` is the point (n / 32, n / 4 % 8, n % 4) of the 16 × 8 × 4 grid:
  a block of 1024 rows, a block of 512 output features, a run of 1024 input features. So at that point

    the input block's (p, j)     is the flattened input at   (1024 * (n / 32) + p,   1024 * (n % 4) + j)
    the weight block's (q, j)    is the stored weights at    (512 * (n / 4 % 8) + q, 1024 * (n % 4) + j)
    the scale / zero-point block's (q, 0) is that column at  (512 * (n / 4 % 8) + q, 0)
    the bias block's (0, q)      is the bias row at          (0, 512 * (n / 4 % 8) + q)

  and the flattened input the region finds is the row-major reshape of the batch.
-/
import proofs.«130968_j40303973105954_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps in closed form, decided over the grid's 512 points. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = t.val / 4 % 8 ∧ win0_3.index t (1 : Fin 2) = 0
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-- The input block. -/
theorem x_read (c : Dev nD) (t : Fin cfg0.N) (p j : Fin 1024) (r : Fin 16384) (k : Fin 4096)
    (hr : r.val = 1024 * (t.val / 32) + p.val) (hk : k.val = 1024 * (t.val % 4) + j.val) :
    (iblk m c 0 t : Vec F S1024x1024 .f32) (ix2 p j) = (V m c main_v0 : Vec F S16384x4096 .f32) (ix2 r k) := by
  obtain ⟨e0, e1, -⟩ := idx_facts t
  show V m c main_v0 (((cfg0.win 0).blk t).view.emb (ix2 p j)) = V m c main_v0 (ix2 r k)
  refine congrArg (V m c main_v0) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * j.val = k.val; rw [e1, hk]; omega

/-- The weight block. -/
theorem w_read (c : Dev nD) (t : Fin cfg0.N) (q : Fin 512) (j : Fin 1024) (o k : Fin 4096)
    (ho : o.val = 512 * (t.val / 4 % 8) + q.val) (hk : k.val = 1024 * (t.val % 4) + j.val) :
    (iblk m c 1 t : Vec F S512x1024 .f32) (ix2 q j) = (V m c main_arg1 : Vec F S4096x4096 .f32) (ix2 o k) := by
  obtain ⟨-, -, e0, e1, -⟩ := idx_facts t
  show V m c main_arg1 (((cfg0.win 1).blk t).view.emb (ix2 q j)) = V m c main_arg1 (ix2 o k)
  refine congrArg (V m c main_arg1) (funext fun a => Fin.ext ?_)
  match a with
  | ⟨0, _⟩ => show win0_1.index t (0 : Fin 2) * 512 + 1 * q.val = o.val; rw [e0, ho]; omega
  | ⟨1, _⟩ => show win0_1.index t (1 : Fin 2) * 1024 + 1 * j.val = k.val; rw [e1, hk]; omega

/-- The scale block. -/
theorem s_read (c : Dev nD) (t : Fin cfg0.N) (q : Fin 512) (o : Fin 4096)
    (ho : o.val = 512 * (t.val / 4 % 8) + q.val) :
    (iblk m c 2 t : Vec F S512x1 .f32) (ix2 q 0) = (V m c main_arg2 : Vec F S4096x1 .f32) (ix2 o 0) := by
  obtain ⟨-, -, -, -, e0, e1, -⟩ := idx_facts t
  show V m c main_arg2 (((cfg0.win 2).blk t).view.emb (ix2 q 0)) = V m c main_arg2 (ix2 o 0)
  refine congrArg (V m c main_arg2) (funext fun a => Fin.ext ?_)
  match a with
  | ⟨0, _⟩ => show win0_2.index t (0 : Fin 2) * 512 + 1 * q.val = o.val; rw [e0, ho]; omega
  | ⟨1, _⟩ => show win0_2.index t (1 : Fin 2) * 1 + 1 * 0 = 0; rw [e1]

/-- The zero-point block. -/
theorem z_read (c : Dev nD) (t : Fin cfg0.N) (q : Fin 512) (o : Fin 4096)
    (ho : o.val = 512 * (t.val / 4 % 8) + q.val) :
    (iblk m c 3 t : Vec F S512x1 .f32) (ix2 q 0) = (V m c main_arg3 : Vec F S4096x1 .f32) (ix2 o 0) := by
  obtain ⟨-, -, -, -, -, -, e0, e1, -⟩ := idx_facts t
  show V m c main_arg3 (((cfg0.win 3).blk t).view.emb (ix2 q 0)) = V m c main_arg3 (ix2 o 0)
  refine congrArg (V m c main_arg3) (funext fun a => Fin.ext ?_)
  match a with
  | ⟨0, _⟩ => show win0_3.index t (0 : Fin 2) * 512 + 1 * q.val = o.val; rw [e0, ho]; omega
  | ⟨1, _⟩ => show win0_3.index t (1 : Fin 2) * 1 + 1 * 0 = 0; rw [e1]

/-- The bias block. -/
theorem b_read (c : Dev nD) (t : Fin cfg0.N) (q : Fin 512) (o : Fin 4096)
    (ho : o.val = 512 * (t.val / 4 % 8) + q.val) :
    (iblk m c 4 t : Vec F S1x512 .f32) (ix2 0 q) = (V m c main_arg4 : Vec F S1x4096 .f32) (ix2 0 o) := by
  obtain ⟨-, -, -, -, -, -, -, -, e0, e1, -⟩ := idx_facts t
  show V m c main_arg4 (((cfg0.win 4).blk t).view.emb (ix2 0 q)) = V m c main_arg4 (ix2 0 o)
  refine congrArg (V m c main_arg4) (funext fun a => Fin.ext ?_)
  match a with
  | ⟨0, _⟩ => show win0_4.index t (0 : Fin 2) * 1 + 1 * 0 = 0; rw [e0]
  | ⟨1, _⟩ => show win0_4.index t (1 : Fin 2) * 512 + 1 * q.val = o.val; rw [e1, ho]; omega

/-- The flattened input the region finds: the batch, reshaped row-major by the one host line before the region. -/
theorem rows_eq (c : Dev nD) :
    (V m c main_v0 : Vec F S16384x4096 .f32)
      = shapeCast S16384x4096 (m ((c : Thread nD τ).loc main_arg0)) shapeCasts_S8x2048x4096_S16384x4096 := by
  show StableHlo.after hostOps0 (fun b => m (c, b)) (Proc.devRef .tc main_v0) = _
  after_results
  rfl

end Cert.KernelIdeal.Blocks

end
-- ==== Proof.PayIdx.lean ====
/-
  The three values the kernel body stores, read at one element (row `p`, column `q` of a 1024 × 512 block) over the
  extended reals, where a change of float format is the identity and the matrix unit's product into a zero
  accumulator is the plain sum over the contraction axis:

    the reset value          0
    the updated total        acc[p, q] + ∑ j, x[p, j] * ((w[q, j] - z[q, 0]) * s[q, 0])
    the output               acc[p, q] + bias[0, q]

  The product contracts the LAST axis of both operands (x is rows × features, w is outputs × features), so the
  left factor is read at (p, j) and the right at (q, j); the zero point and the scale are columns broadcast along
  the features, the bias a row broadcast down the rows.
-/
import proofs.«130968_j40303973105954_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayIdx

open Idealize.ShloMosaic Idealize.ShloMosaic.ValueIdx
open Cert.KernelIdeal Cert.KernelIdeal.Gen

/-! ## The product's operand indices -/

theorem lhs_axis0 (i : S1024x512.Idx) (k : dot_S1024x1024_S512x1024_S1024x512_1_1_0_0_n_n.contr.Idx) :
    (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_axis1 (i : S1024x512.Idx) (k : dot_S1024x1024_S512x1024_S1024x512_1_1_0_0_n_n.contr.Idx) :
    (dot_S1024x1024_S512x1024_S1024x512_1_1_0_0_n_n.lhsIdx i k 1).val = (k ⟨0, by decide⟩).val :=
  dot_S1024x1024_S512x1024_S1024x512_1_1_0_0_n_n.lhsIdx_val_of_single rfl i k
theorem rhs_axis0 (i : S1024x512.Idx) (k : dot_S1024x1024_S512x1024_S1024x512_1_1_0_0_n_n.contr.Idx) :
    (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_axis1 (i : S1024x512.Idx) (k : dot_S1024x1024_S512x1024_S1024x512_1_1_0_0_n_n.contr.Idx) :
    (dot_S1024x1024_S512x1024_S1024x512_1_1_0_0_n_n.rhsIdx i k 1).val = (k ⟨0, by decide⟩).val :=
  dot_S1024x1024_S512x1024_S1024x512_1_1_0_0_n_n.rhsIdx_val_of_single rfl i k

/-- The block product into a zero accumulator at (p, q): row `p` of the left operand against row `q` of the right. -/
theorem product_apply (A : FVec Ideal S1024x1024 .bf16) (B : FVec Ideal S512x1024 .bf16) (p : Fin 1024) (q : Fin 512) :
    matmul dot_S1024x1024_S512x1024_S1024x512_1_1_0_0_n_n none A B (constant (F := Ideal) S1024x512 .f32 0x00000000#32) (ix2 p q)
      = ∑ j : Fin 1024, A (ix2 p j) * B (ix2 q j) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun j _ => ?_
  have hj := ValueIdx.contrEquiv1_symm_val dot_S1024x1024_S512x1024_S1024x512_1_1_0_0_n_n 1024 rfl rfl j
  have el : dot_S1024x1024_S512x1024_S1024x512_1_1_0_0_n_n.lhsIdx (ix2 p q) ((ValueIdx.contrEquiv1 dot_S1024x1024_S512x1024_S1024x512_1_1_0_0_n_n 1024 rfl rfl).symm j) = ix2 p j := funext fun a => Fin.ext (by
    match a with
    | ⟨0, _⟩ => exact lhs_axis0 _ _
    | ⟨1, _⟩ => exact (lhs_axis1 _ _).trans hj)
  have er : dot_S1024x1024_S512x1024_S1024x512_1_1_0_0_n_n.rhsIdx (ix2 p q) ((ValueIdx.contrEquiv1 dot_S1024x1024_S512x1024_S1024x512_1_1_0_0_n_n 1024 rfl rfl).symm j) = ix2 q j := funext fun a => Fin.ext (by
    match a with
    | ⟨0, _⟩ => exact rhs_axis0 _ _
    | ⟨1, _⟩ => exact (rhs_axis1 _ _).trans hj)
  rw [el, er]

/-! ## The broadcasts -/

/-- A column broadcast along the features reads the column's entry of the row. -/
theorem column_apply (v : FVec Ideal S512x1 .f32) (h : S512x1.Broadcasts S512x1024) (q : Fin 512) (j : Fin 1024) :
    broadcastTo S512x1024 v h (ix2 q j) = v (ix2 q 0) :=
  broadcastTo_apply v h (ix2 q j) (ix2 q 0) (fun a => match a with
    | ⟨0, _⟩ => by show q.val = if (512 : Nat) = 1 then 0 else q.val; rw [if_neg (by decide)]
    | ⟨1, _⟩ => by show (0 : Nat) = if (1 : Nat) = 1 then 0 else j.val; rw [if_pos rfl])

/-- A row broadcast down the rows reads the row's entry of the column. -/
theorem row_apply (v : FVec Ideal S1x512 .f32) (h : S1x512.Broadcasts S1024x512) (p : Fin 1024) (q : Fin 512) :
    broadcastTo S1024x512 v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The payloads -/

/-- The reset value is zero everywhere. -/
theorem reset_apply (i : S1024x512.Idx) : k0_pay1 (F := Ideal) i = 0 := by
  unfold k0_pay1
  rw [shapeCast_self]
  exact Ideal.ofBits_zero_f32

/-- The updated total at (p, q). -/
theorem update_apply (w : FVec Ideal S512x1024 .f32) (z s : FVec Ideal S512x1 .f32) (x : FVec Ideal S1024x1024 .f32)
    (acc : FVec Ideal S1024x512 .f32) (p : Fin 1024) (q : Fin 512) :
    k0_pay2 (F := Ideal) w z s x acc (ix2 p q)
      = acc (ix2 p q) + ∑ j : Fin 1024, x (ix2 p j) * ((w (ix2 q j) - z (ix2 q 0)) * s (ix2 q 0)) := by
  unfold k0_pay2
  rw [shapeCast_self]
  refine (congrArg (acc (ix2 p q) + ·) (product_apply _ _ p q)).trans ?_
  refine congrArg (acc (ix2 p q) + ·) (Finset.sum_congr rfl fun j _ => ?_)
  show shapeCast S1024x1024 x _ (ix2 p j) * ((w (ix2 q j) - broadcastTo S512x1024 z _ (ix2 q j)) * broadcastTo S512x1024 s _ (ix2 q j)) = _
  rw [shapeCast_self, column_apply, column_apply]

/-- The output at (p, q). -/
theorem output_apply (acc : FVec Ideal S1024x512 .f32) (b : FVec Ideal S1x512 .f32) (p : Fin 1024) (q : Fin 512) :
    k0_pay3 (F := Ideal) acc b (ix2 p q) = acc (ix2 p q) + b (ix2 0 q) := by
  unfold k0_pay3
  show acc (ix2 p q) + broadcastTo S1024x512 b _ (ix2 p q) = _
  rw [row_apply]

end Cert.KernelIdeal.PayIdx

end
-- ==== Proof.Spec.lean ====
/-
  The linear layer with affinely dequantised weights, as one function of its five argument arrays over the extended
  reals: with `wdq o k = (W[o,k] - Z[o,0]) * S[o,0]` the weight of output feature `o` at input feature `k`,

      y[b, s, o] = (∑ k, x[b, s, k] * wdq o k) + bias[0, o].

  `lin3` states it on the (8, 2048, 4096) batch; `lin2` on the 16384 flattened rows `r = 2048 * b + s`; and a
  row-major reshape in, `lin2`, and a row-major reshape out is `lin3` (`reshape_lin2`): flattening the two
  leading axes does not touch the contraction.
-/
import Idealize.ShloMosaic.Lib.ValueIdx
import Idealize.ShloMosaic.Lib.Pipeline.Value
import Idealize.ShloMosaic.PureOps.Ideal.Laws

noncomputable section

namespace Cert.W8A16

open Idealize.ShloMosaic Idealize.ShloMosaic.ValueIdx

abbrev SX3 : Shape := ⟨3, ![8, 2048, 4096]⟩
abbrev SX2 : Shape := ⟨2, ![16384, 4096]⟩
abbrev SW : Shape := ⟨2, ![4096, 4096]⟩
abbrev SC : Shape := ⟨2, ![4096, 1]⟩
abbrev SB : Shape := ⟨2, ![1, 4096]⟩

/-- The dequantised weight of output feature `o` at input feature `k`: the stored weight minus the row's zero point,
    times the row's scale. -/
def wdq (W : SW.Idx → EReal) (S Z : SC.Idx → EReal) (o k : Fin 4096) : EReal :=
  (W (ix2 o k) - Z (ix2 o 0)) * S (ix2 o 0)

/-- The layer on flattened rows: row `r` against every dequantised weight row, plus the bias. -/
def lin2 (X : SX2.Idx → EReal) (W : SW.Idx → EReal) (S Z : SC.Idx → EReal) (B : SB.Idx → EReal) : SX2.Idx → EReal :=
  fun i => (∑ k : Fin 4096, X (ix2 (i 0) k) * wdq W S Z (i 1) k) + B (ix2 0 (i 1))

/-- The layer on the batch. -/
def lin3 (x : SX3.Idx → EReal) (W : SW.Idx → EReal) (S Z : SC.Idx → EReal) (B : SB.Idx → EReal) : SX3.Idx → EReal :=
  fun i => (∑ k : Fin 4096, x (ix3 (i 0) (i 1) k) * wdq W S Z (i 2) k) + B (ix2 0 (i 2))

/-- The flattened row of batch entry `b`, position `s`. -/
def flatRow (b : Fin 8) (s : Fin 2048) : Fin 16384 := ⟨2048 * b.val + s.val, by omega⟩

/-- Flatten the rows, apply the layer, restore the batch axes: the layer on the batch. -/
theorem reshape_lin2 (x : SX3.Idx → EReal) (W : SW.Idx → EReal) (S Z : SC.Idx → EReal) (B : SB.Idx → EReal)
    (h1 : SX3.ShapeCasts SX2) (h2 : SX2.ShapeCasts SX3) :
    shapeCast SX3 (lin2 (shapeCast SX2 x h1) W S Z B) h2 = lin3 x W S Z B := by
  funext i
  obtain ⟨b, s, o, rfl⟩ : ∃ b s o, i = ix3 b s o := ⟨i 0, i 1, i 2, eq_ix3 i⟩
  rw [shapeCast_apply _ h2 (ix3 b s o) (ix2 (flatRow b s) o) (by
    rw [Shape.rowMajor_val_two, Shape.rowMajor_val_three]
    show (2048 * b.val + s.val) * 4096 + o.val = (b.val * 2048 + s.val) * 4096 + o.val
    omega)]
  show (∑ k : Fin 4096, shapeCast SX2 x h1 (ix2 (flatRow b s) k) * wdq W S Z o k) + B (ix2 0 o)
    = (∑ k : Fin 4096, x (ix3 b s k) * wdq W S Z o k) + B (ix2 0 o)
  refine congrArg (· + B (ix2 0 o)) (Finset.sum_congr rfl fun k _ => ?_)
  rw [shapeCast_apply x h1 (ix2 (flatRow b s) k) (ix3 b s k) (by
    rw [Shape.rowMajor_val_two, Shape.rowMajor_val_three]
    show (b.val * 2048 + s.val) * 4096 + k.val = (2048 * b.val + s.val) * 4096 + k.val
    omega)]

end Cert.W8A16

end
-- ==== Proof.KSplit.lean ====
/-
  The contraction axis of length 4096 is visited in four consecutive runs of 1024 columns. A sum over the whole axis,
  in any commutative monoid, is the left-nested sum of the four runs' sums started from zero — the order in which a
  running total that is reset to zero and then increased run by run collects them.
-/
import Mathlib.Algebra.BigOperators.Fin

namespace Cert.W8A16

/-- Column `j` of run `kk`: position `1024 * kk + j` of the contraction axis. -/
def kcol (kk : Fin 4) (j : Fin 1024) : Fin 4096 := ⟨1024 * kk.val + j.val, by omega⟩

theorem kcol_val (kk : Fin 4) (j : Fin 1024) : (kcol kk j).val = 1024 * kk.val + j.val := rfl

/-- Zero, plus run 0, plus run 1, plus run 2, plus run 3 (associated to the left) is the sum over the whole axis. -/
theorem sum_runs {M : Type*} [AddCommMonoid M] (f : Fin 4096 → M) :
    ((((0 + ∑ j : Fin 1024, f (kcol 0 j)) + ∑ j : Fin 1024, f (kcol 1 j)) + ∑ j : Fin 1024, f (kcol 2 j))
      + ∑ j : Fin 1024, f (kcol 3 j)) = ∑ k : Fin 4096, f k := by
  rw [zero_add]
  symm
  show ∑ k : Fin (1024 + 1024 + 1024 + 1024), f k = _
  rw [Fin.sum_univ_add, Fin.sum_univ_add, Fin.sum_univ_add]
  refine congrArg₂ (· + ·) (congrArg₂ (· + ·) (congrArg₂ (· + ·) ?_ ?_) ?_) ?_ <;>
    exact Finset.sum_congr rfl fun j _ => congrArg f (Fin.ext (by simp [kcol] <;> omega))

end Cert.W8A16
-- ==== Proof.Element.lean ====
/-
  One element of an output block, over the extended reals, as the layer's value there. At the last point `n` of a run
  (n ≡ 3 mod 4) the output's staging buffer holds, at (p, q),

      ((((0 + D₀) + D₁) + D₂) + D₃) + bias[0, o],    D_kk = ∑ j < 1024, X[r, 1024 kk + j] * wdq o (1024 kk + j),

  with r = 1024 * (n / 32) + p the flattened input row and o = 512 * (n / 4 % 8) + q the output feature: the four
  points of the run share the row block and the feature block and walk the four runs of the contraction axis in
  order. Addition on the extended reals is commutative and associative with zero neutral (no infinity is ever
  cancelled: nothing is subtracted or distributed), so the nested sum is the sum over all 4096 input features.
-/
import proofs.«130968_j40303973105954_1_alg».proof.Proof.Fold
import proofs.«130968_j40303973105954_1_alg».proof.Proof.Blocks
import proofs.«130968_j40303973105954_1_alg».proof.Proof.PayIdx
import proofs.«130968_j40303973105954_1_alg».proof.Proof.Spec
import proofs.«130968_j40303973105954_1_alg».proof.Proof.KSplit

set_option maxRecDepth 16384

noncomputable section

namespace Cert.KernelIdeal.Element

open Idealize.ShloMosaic Idealize.ShloMosaic.TcCoe Idealize.SL.Sem Idealize.ShloMosaic.ValueIdx
open Cert.KernelIdeal Cert.KernelIdeal.Gen Cert.W8A16

variable (m : (ℓ : Loc nD τ sig) → Buf (Elt Ideal) ℓ)

/-- The arrays as the region finds them: the flattened input rows, the stored weights, the scales, the zero points, the bias. -/
abbrev Xrows (c : Dev nD) : Vec Ideal S16384x4096 .f32 := V m c main_v0
abbrev Warr (c : Dev nD) : Vec Ideal S4096x4096 .f32 := V m c main_arg1
abbrev Sarr (c : Dev nD) : Vec Ideal S4096x1 .f32 := V m c main_arg2
abbrev Zarr (c : Dev nD) : Vec Ideal S4096x1 .f32 := V m c main_arg3
abbrev Barr (c : Dev nD) : Vec Ideal S1x4096 .f32 := V m c main_arg4

/-- One point's update at (p, q): the total there plus run `kk = n % 4` of row `r` against dequantised weight row `o`. -/
theorem step_apply (c : Dev nD) (t : Fin cfg0.N) (acc : Vec Ideal S1024x512 .f32) (p : Fin 1024) (q : Fin 512)
    (r : Fin 16384) (o : Fin 4096) (kk : Fin 4)
    (hr : r.val = 1024 * (t.val / 32) + p.val) (ho : o.val = 512 * (t.val / 4 % 8) + q.val) (hkk : kk.val = t.val % 4) :
    Fold.step m c t acc (ix2 p q)
      = acc (ix2 p q) + ∑ j : Fin 1024, Xrows m c (ix2 r (kcol kk j)) * wdq (Warr m c) (Sarr m c) (Zarr m c) o (kcol kk j) := by
  refine (PayIdx.update_apply (Fold.wblk m c t) (Fold.zblk m c t) (Fold.sblk m c t) (Fold.xblk m c t) acc p q).trans ?_
  refine congrArg (acc (ix2 p q) + ·) (Finset.sum_congr rfl fun j _ => ?_)
  have hk : (kcol kk j).val = 1024 * (t.val % 4) + j.val := by rw [kcol_val, hkk]
  have ex := Blocks.x_read m c t p j r (kcol kk j) hr hk
  have ew := Blocks.w_read m c t q j o (kcol kk j) ho hk
  have es := Blocks.s_read m c t q o ho
  have ez := Blocks.z_read m c t q o ho
  show Fold.xblk m c t (ix2 p j) * ((Fold.wblk m c t (ix2 q j) - Fold.zblk m c t (ix2 q 0)) * Fold.sblk m c t (ix2 q 0))
    = Xrows m c (ix2 r (kcol kk j)) * ((Warr m c (ix2 o (kcol kk j)) - Zarr m c (ix2 o 0)) * Sarr m c (ix2 o 0))
  exact congrArg₂ (· * ·) ex (congrArg₂ (· * ·) (congrArg₂ (· - ·) ew ez) es)

/-- The output block's element at the last point of a run is the layer on flattened rows there. -/
theorem output_apply (c : Dev nD) (t : Fin cfg0.N) (h1 : t.val % 4 = 3) (p : Fin 1024) (q : Fin 512)
    (r : Fin 16384) (o : Fin 4096)
    (hr : r.val = 1024 * (t.val / 32) + p.val) (ho : o.val = 512 * (t.val / 4 % 8) + q.val) :
    (outsAt0 m c t.val t.isLt).1 (ix2 p q)
      = lin2 (Xrows m c) (Warr m c) (Sarr m c) (Zarr m c) (Barr m c) (ix2 r o) := by
  have e1 : (Fold.prev t).val = t.val - 1 := rfl
  have e2 : (Fold.prev (Fold.prev t)).val = t.val - 1 - 1 := rfl
  have e3 : (Fold.prev (Fold.prev (Fold.prev t))).val = t.val - 1 - 1 - 1 := rfl
  rw [Fold.output_run m c t h1]
  refine (PayIdx.output_apply _ (Fold.bblk m c t) p q).trans ?_
  rw [step_apply m c t _ p q r o 3 hr ho (by show 3 = t.val % 4; omega),
    step_apply m c (Fold.prev t) _ p q r o 2 (by rw [e1]; omega) (by rw [e1]; omega) (by rw [e1]; show 2 = (t.val - 1) % 4; omega),
    step_apply m c (Fold.prev (Fold.prev t)) _ p q r o 1 (by rw [e2]; omega) (by rw [e2]; omega) (by rw [e2]; show 1 = (t.val - 1 - 1) % 4; omega),
    step_apply m c (Fold.prev (Fold.prev (Fold.prev t))) _ p q r o 0 (by rw [e3]; omega) (by rw [e3]; omega) (by rw [e3]; show 0 = (t.val - 1 - 1 - 1) % 4; omega),
    PayIdx.reset_apply]
  have eb : Fold.bblk m c t (ix2 0 q) = Barr m c (ix2 0 o) := Blocks.b_read m c t q o ho
  rw [eb, sum_runs (fun k => Xrows m c (ix2 r k) * wdq (Warr m c) (Sarr m c) (Zarr m c) o k)]
  rfl

end Cert.KernelIdeal.Element

end
-- ==== Proof.Result.lean ====
/-
  From blocks to the array, and through the last reshape. Only the last point of each run of four writes its output
  block back, and those 128 blocks (16 row blocks × 8 feature blocks of 1024 × 512) tile the 16384 × 4096 result:
  element (r, o) lies in the block of the point ((r / 1024) * 8 + o / 512) * 4 + 3. Every written element is the
  layer on flattened rows there, so the region's result array is that function; the host line after the region
  restores the batch axes, and a flatten, the row layer, an unflatten is the layer on the batch.
-/
import proofs.«130968_j40303973105954_1_alg».proof.Proof.Element

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.W8A16 Cert.KernelIdeal.Element

variable (m : (ℓ : Loc nD τ sig) → Buf (Elt Ideal) ℓ) (ρ : Dev nD → PrngReg)

/-- The layer on flattened rows, of the arrays as the region finds them. -/
abbrev rowsOut (c : Dev nD) : Vec Ideal S16384x4096 .f32 :=
  lin2 (Xrows m c) (Warr m c) (Sarr m c) (Zarr m c) (Barr m c)

/-- What a writing point writes back is its block of `rowsOut`. -/
theorem flushed_eq (c : Dev nD) (t : Fin cfg0.N) (hf : (cfg0.win 5).flush t = true) :
    (dats m 0 c).flushed 5 t = ((cfg0.win 5).blk t).view.read (Elt Ideal) (rowsOut m c) := by
  have h1 : t.val % 4 = 3 := (flush0_5 t).mp hf
  obtain ⟨-, -, -, -, -, -, -, -, -, -, e0, e1⟩ := Blocks.idx_facts t
  have hN : t.val < 512 := lt_of_lt_of_eq t.isLt (show cfg0.N = 512 from N_0)
  show (cfg0.win 5).cut (grid0.coords t) ((dats m 0 c).after 5 t) = _
  rw [after0_5]
  funext y
  obtain ⟨p, q, rfl⟩ : ∃ (p : Fin 1024) (q : Fin 512), y = ix2 p q := ⟨y 0, y 1, eq_ix2 y⟩
  show (outsAt0 m c t.val t.isLt).1 (ix2 p q) = rowsOut m c (((cfg0.win 5).blk t).view.emb (ix2 p q))
  rw [Element.output_apply m c t h1 p q ⟨1024 * (t.val / 32) + p.val, by omega⟩ ⟨512 * (t.val / 4 % 8) + q.val, by omega⟩ rfl rfl]
  refine congrArg (rowsOut m c) (funext fun a => Fin.ext ?_)
  match a with
  | ⟨0, _⟩ => show 1024 * (t.val / 32) + p.val = win0_5.index t (0 : Fin 2) * 1024 + 1 * p.val; rw [e0]; omega
  | ⟨1, _⟩ => show 512 * (t.val / 4 % 8) + q.val = win0_5.index t (1 : Fin 2) * 512 + 1 * q.val; rw [e1]; omega

/-- An element is in point `t`'s block iff each coordinate is in the block's range on its axis. -/
theorem mem_blk (t : Fin cfg0.N) (i : S16384x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v1).slice (win0_5.rect t)).set ↔ _
  rw [View.set_slice_whole, Rect.mem_set_unit]
  exact Iff.rfl

/-- Every element of the result lies in some writing point's block. -/
theorem cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 512 := N_0
  obtain ⟨n, hn⟩ : ∃ n, n = ((i 0).val / 1024 * 8 + (i 1).val / 512) * 4 + 3 := ⟨_, rfl⟩
  have hlt : n < cfg0.N := by rw [hN]; omega
  obtain ⟨-, -, -, -, -, -, -, -, -, -, e0, e1⟩ := Blocks.idx_facts ⟨n, hlt⟩
  refine ⟨⟨n, hlt⟩, (flush0_5 _).mpr (by show n % 4 = 3; omega), ?_⟩
  rw [mem_blk]
  intro a
  match a with
  | ⟨0, _⟩ =>
    show win0_5.index ⟨n, hlt⟩ (0 : Fin 2) * 1024 ≤ (i 0).val ∧ (i 0).val < win0_5.index ⟨n, hlt⟩ (0 : Fin 2) * 1024 + 1024
    rw [e0]; show n / 32 * 1024 ≤ (i 0).val ∧ (i 0).val < n / 32 * 1024 + 1024; omega
  | ⟨1, _⟩ =>
    show win0_5.index ⟨n, hlt⟩ (1 : Fin 2) * 512 ≤ (i 1).val ∧ (i 1).val < win0_5.index ⟨n, hlt⟩ (1 : Fin 2) * 512 + 512
    rw [e1]; show n / 4 % 8 * 512 ≤ (i 1).val ∧ (i 1).val < n / 4 % 8 * 512 + 512; omega

/-- So the region's result array ends at `rowsOut`. -/
theorem final (c : Dev nD) : (dats m 0 c).arrAt 5 cfg0.N = rowsOut m c :=
  (dats m 0 c).arrAt_eq_of_cover 5 (rowsOut m c) (flushed_eq m c) cover

/-- The program's result: the host line after the region reshapes the region's result array. -/
theorem tail_eq (c : Dev nD) :
    Pipeline.afterTail₀ cfgs (dats m) 0 (V0 m) [hostOps1] c main_v2
      = shapeCast S8x2048x4096 (rowsOut m c) shapeCasts_S16384x4096_S8x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = rowsOut m c :=
    (Pipeline.withArrays_arr spec0 launch0.win.arr_inj c _ _ 5).trans (final m c)
  rw [e]
  rfl

/-- The arrays the region finds, as the launch memory: the weights, scales, zero points and bias untouched, the rows
    the reshaped batch. -/
theorem rowsOut_eq (c : Dev nD) :
    shapeCast S8x2048x4096 (rowsOut m c) shapeCasts_S16384x4096_S8x2048x4096
      = lin3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  show shapeCast S8x2048x4096 (lin2 (V m c main_v0) (V m c main_arg1) (V m c main_arg2) (V m c main_arg3) (V m c main_arg4))
    shapeCasts_S16384x4096_S8x2048x4096 = _
  rw [Blocks.rows_eq m c, V_main_arg1 m c, V_main_arg2 m c, V_main_arg3 m c, V_main_arg4 m c]
  exact reshape_lin2 _ _ _ _ _ _ _

/-- The run, read: every weakly fair execution of the idealized kernel program terminates with its result at the
    layer on the batch of the launch arguments, and the arguments unchanged. -/
theorem run : θ_run defs (onTc (τ := τ) (main (F := Ideal))) ⟨m, fun _ => 0, ρ⟩ fun r => ∀ c : Dev nD,
      r.2.mem ((c.tc : Thread nD τ).loc main_v2)
        = lin3 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans ((tail_eq m c).trans (rowsOut_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Result

end
-- ==== Proof.RefValue.lean ====
/-
  The reference, read at one element over the extended reals, is the layer on the batch: its dequantisation is the
  same two column broadcasts, subtraction and product; its einsum contracts the input features of x[b, s, ·] against
  the input features of the dequantised weight row o; its bias reaches (b, s, o) through two broadcasts that keep only o.
-/
import proofs.«130968_j40303973105954_1_alg».proof.Defs
import proofs.«130968_j40303973105954_1_alg».proof.Proof.Gen.ReferenceIdeal.Run
import proofs.«130968_j40303973105954_1_alg».proof.Proof.Gen.ReferenceIdeal.Read
import proofs.«130968_j40303973105954_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.W8A16

/-- The reference's result as a function of its five arguments is `lin3` of them (weights, scales, zero points, bias
    in the arguments' order). -/
theorem ref_eq (x0 : (⟨S8x2048x4096, .f32⟩ : BufTy).Contents (Elt Ideal)) (x1 : (⟨S4096x4096, .f32⟩ : BufTy).Contents (Elt Ideal)) (x2 x3 : (⟨S4096x1, .f32⟩ : BufTy).Contents (Elt Ideal)) (x4 : (⟨S1x4096, .f32⟩ : BufTy).Contents (Elt Ideal)) :
    val_main_v7 (F := Ideal) x0 x1 x2 x3 x4 = lin3 x0 x1 x2 x3 x4 := by
  funext i
  obtain ⟨b, s, o, rfl⟩ : ∃ (b : Fin 8) (s : Fin 2048) (o : Fin 4096), i = ix3 b s o := ⟨i 0, i 1, i 2, eq_ix3 i⟩
  rw [val_main_v7_apply, val_main_v4_apply, val_main_v6_apply, val_main_v5_apply]
  show (∑ k : Fin 4096, x0 (lidx_main_v4 (ix3 b s o) k) * val_main_v3 (F := Ideal) x1 x2 x3 (ridx_main_v4 (ix3 b s o) k))
      + x4 (idx_main_v5 (idx_main_v6 (ix3 b s o)))
    = (∑ k : Fin 4096, x0 (ix3 b s k) * wdq x1 x2 x3 o k) + x4 (ix2 0 o)
  have eb : idx_main_v5 (idx_main_v6 (ix3 b s o)) = ix2 0 o := funext fun a => Fin.ext (by
    match a with
    | ⟨0, _⟩ => rfl
    | ⟨1, _⟩ => rfl)
  rw [eb]
  refine congrArg (· + x4 (ix2 0 o)) (Finset.sum_congr rfl fun k _ => ?_)
  have el : lidx_main_v4 (ix3 b s o) k = ix3 b s k := funext fun a => Fin.ext (by
    match a with
    | ⟨0, _⟩ => rfl
    | ⟨1, _⟩ => rfl
    | ⟨2, _⟩ => rfl)
  have er : ridx_main_v4 (ix3 b s o) k = ix2 o k := funext fun a => Fin.ext (by
    match a with
    | ⟨0, _⟩ => rfl
    | ⟨1, _⟩ => rfl)
  have ez : idx_main_v0 (ix2 o k) = ix2 o 0 := funext fun a => Fin.ext (by
    match a with
    | ⟨0, _⟩ => rfl
    | ⟨1, _⟩ => rfl)
  have es : idx_main_v2 (ix2 o k) = ix2 o 0 := funext fun a => Fin.ext (by
    match a with
    | ⟨0, _⟩ => rfl
    | ⟨1, _⟩ => rfl)
  rw [el, er, val_main_v3_apply, val_main_v1_apply, val_main_v0_apply, val_main_v2_apply, ez, es]
  rfl

end Cert.ReferenceIdeal.RefValue

end
-- ==== Proof.lean ====
/-
  A linear layer with int8-range weights stored as f32 and dequantised on the fly: with
  `wdq o k = (W[o,k] - Z[o,0]) * S[o,0]`, both programs compute, over the extended reals,

      y[b, s, o] = (∑ k < 4096, x[b, s, k] * wdq o k) + bias[0, o].

  The kernel flattens the batch to 16384 rows, tiles rows × output features × input features as 16 × 8 × 4 blocks,
  and for each (row block, feature block) keeps a running total over the four input-feature blocks: reset to zero,
  increased by each block's product x_blk · wdq_blkᵀ (bf16 operands are the same reals; the matrix unit's product
  into zero is the plain sum), and at the fourth step written out with the bias added; a final reshape restores the
  batch axes. The reference dequantises the whole weight matrix, contracts all 4096 input features at once and adds
  the bias. The two agree because addition on the extended reals is a commutative monoid: zero plus the four
  partial sums, in order, is the sum over the whole axis. No finiteness of the inputs is used.

  The three frames are the generated runs; the idealization rewrote nothing, so `preserves` is trivial.
-/
import proofs.«130968_j40303973105954_1_alg».proof.Defs
import proofs.«130968_j40303973105954_1_alg».proof.Proof.Gen.Kernel
import proofs.«130968_j40303973105954_1_alg».proof.Proof.Gen.Kernel.Skeleton
import proofs.«130968_j40303973105954_1_alg».proof.Proof.Gen.Kernel.Launch
import proofs.«130968_j40303973105954_1_alg».proof.Proof.Gen.Kernel.Points
import proofs.«130968_j40303973105954_1_alg».proof.Proof.Gen.Kernel.Frame
import proofs.«130968_j40303973105954_1_alg».proof.Proof.Gen.KernelIdeal
import proofs.«130968_j40303973105954_1_alg».proof.Proof.Gen.KernelIdeal.Skeleton
import proofs.«130968_j40303973105954_1_alg».proof.Proof.Gen.KernelIdeal.Launch
import proofs.«130968_j40303973105954_1_alg».proof.Proof.Gen.KernelIdeal.Points
import proofs.«130968_j40303973105954_1_alg».proof.Proof.Gen.KernelIdeal.Frame
import proofs.«130968_j40303973105954_1_alg».proof.Proof.Gen.ReferenceIdeal
import proofs.«130968_j40303973105954_1_alg».proof.Proof.Gen.Pre_finite_inputs
import proofs.«130968_j40303973105954_1_alg».proof.Proof.Result
import proofs.«130968_j40303973105954_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the layer on the batch of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
